-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S16x8192x2048 : Shape := ⟨3, ![16, 8192, 2048]⟩
abbrev S2048 : Shape := ⟨1, ![2048]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S16x8192x2048 : S_.BroadcastsInDim S16x8192x2048 (![] : Fin 0 → Fin S16x8192x2048.rank)
  reducesTo_S16x8192x2048_S_d0_1_2 : S16x8192x2048.ReducesTo [0, 1, 2] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg1 : IVec S1x8192 32) (main_v13 : IVec S_ 1) (main_v15 : IVec S1x8192 1) (main_c_5 : IVec S_ 32) : IVec S_ 1 :=
  let main_v16 : IVec S1x8192 32 := broadcastInDim S1x8192 ![] bcast_S_S1x8192 main_c_5
  let main_v17 : IVec S1x8192 1 := cmpi .slt main_arg1 main_v16
  let main_v18 : IVec S1x8192 1 := andi main_v15 main_v17
  let main_c_6 : IVec S_ 1 := constantI S_ 1 1#1
  let main_v19 : IVec S_ 1 := (fun x v => Host.reduce IntOp.andi x v reducesTo_S1x8192_S_d0_1 h_S_) main_v18 main_c_6
  let main_v20 : IVec S_ 1 := andi main_v13 main_v19
  main_v20

def fn {F : FTy → Type} [FloatOps F] (main_arg0 : FVec F S1x8192 .f32) (main_arg1 : IVec S1x8192 32) (main_arg2 : FVec F S16x8192x2048 .f32) (main_arg3 : FVec F S2048 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S16x8192x2048 .f32 := Host.absf main_arg2
  let main_cst_0 : FVec F S_ .f32 := constant S_ .f32 0x7F800000#32
  let main_v5 : FVec F S16x8192x2048 .f32 := broadcastInDim S16x8192x2048 ![] bcast_S_S16x8192x2048 main_cst_0
  let main_v6 : IVec S16x8192x2048 1 := cmpf .olt main_v4 main_v5
  let main_c_1 : IVec S_ 1 := constantI S_ 1 1#1
  let main_v7 : IVec S_ 1 := (fun x v => Host.reduce IntOp.andi x v reducesTo_S16x8192x2048_S_d0_1_2 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_c_4 : IVec S_ 32 := constantI S_ 32 0#32
  let main_v14 : IVec S1x8192 32 := broadcastInDim S1x8192 ![] bcast_S_S1x8192 main_c_4
  let main_v15 : IVec S1x8192 1 := cmpi .sge main_arg1 main_v14
  let main_c_5 : IVec S_ 32 := constantI S_ 32 16#32
  fn_part1 (F := F) main_arg1 main_v13 main_v15 main_c_5
-- ==== Kernel.lean ====
abbrev S1x8192 : Shape := ⟨2, ![1, 8192]⟩
abbrev S16x8192x2048 : Shape := ⟨3, ![16, 8192, 2048]⟩
abbrev S2048 : Shape := ⟨1, ![2048]⟩
abbrev S1x2048 : Shape := ⟨2, ![1, 2048]⟩
abbrev S1x8192x512 : Shape := ⟨3, ![1, 8192, 512]⟩
abbrev S1x512 : Shape := ⟨2, ![1, 512]⟩
abbrev S8192x512 : Shape := ⟨2, ![8192, 512]⟩

abbrev nBuf : Space → Nat
  | .hbm => 6
  | .vmem => 9
  | .smem => 0
  | _ => 0

abbrev bufTy : (tb : Table) → Fin (tcTables nBuf tb) → BufTy
  | .hbm, ⟨0, _⟩ => ⟨S1x8192, .f32⟩
  | .hbm, ⟨1, _⟩ => ⟨S1x8192, .i32⟩
  | .hbm, ⟨2, _⟩ => ⟨S16x8192x2048, .f32⟩
  | .hbm, ⟨3, _⟩ => ⟨S2048, .f32⟩
  | .hbm, ⟨4, _⟩ => ⟨S1x2048, .f32⟩
  | .hbm, ⟨5, _⟩ => ⟨S1x2048, .f32⟩
  | .local _ .vmem, ⟨0, _⟩ => ⟨S1x8192, .f32⟩
  | .local _ .vmem, ⟨1, _⟩ => ⟨S1x8192, .i32⟩
  | .local _ .vmem, ⟨2, _⟩ => ⟨S1x8192x512, .f32⟩
  | .local _ .vmem, ⟨3, _⟩ => ⟨S1x8192x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x8192 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2048_S1x2048 : S2048.ShapeCasts S1x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x8192_S1x8192_0_0 : ∀ a, (![0, 0] : Fin 2 → Nat) a + S1x8192.size a ≤ S1x8192.size a
  h_S1x8192 : 0 < S1x8192.numel
  natLt_1_32 : 1 < 32
  inb_S1x8192x512_S1x8192x512_0_0_0 : ∀ a, (![0, 0, 0] : Fin 3 → Nat) a + S1x8192x512.size a ≤ S1x8192x512.size a
  h_S1x8192x512 : 0 < S1x8192x512.numel
  shapeCasts_S1x8192x512_S8192x512 : S1x8192x512.ShapeCasts S8192x512
  dot_S1x8192_S8192x512_S1x512_1_0_0_1_n_n_wf : DotDims.WF S1x8192 S8192x512 S1x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x8192.size a
  hwx0_0 : ∀ i : grid0.Coords, EltTy.bits .f32 = 32 ∨ (Rect.block (s := S1x8192) S1x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .i32 = 32 ∨ (Rect.block (s := S1x8192) S1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x512.size a ≤ S16x8192x2048.size a
  hwx0_2 : ∀ i : grid0.Coords, EltTy.bits .f32 = 32 ∨ (Rect.block (s := S16x8192x2048) S1x8192x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)

variable [Facts₀]

def dot_S1x8192_S8192x512_S1x512_1_0_0_1_n_n : DotDims S1x8192 S8192x512 S1x512 where
  lhsContracting := [1]
  rhsContracting := [0]
  lhsNonContracting := [0]
  rhsNonContracting := [1]
  lhsBatch := []
  rhsBatch := []
  wf := dot_S1x8192_S8192x512_S1x512_1_0_0_1_n_n_wf

abbrev win0_0 : Pipeline.Window sig grid0 :=
  Pipeline.Window.ofSpec (Memref.whole main_arg0) S1x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8192x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1x8192 : Shape := ⟨2, ![1, 8192]⟩
abbrev S16x8192x2048 : Shape := ⟨3, ![16, 8192, 2048]⟩
abbrev S2048 : Shape := ⟨1, ![2048]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S8192x2048 : Shape := ⟨2, ![8192, 2048]⟩
abbrev S1x2048 : Shape := ⟨2, ![1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S1x8192, .i32⟩
  | .hbm, ⟨2, _⟩ => ⟨S16x8192x2048, .f32⟩
  | .hbm, ⟨3, _⟩ => ⟨S2048, .f32⟩
  | .hbm, ⟨4, _⟩ => ⟨S8192, .i32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S8192x1, .i32⟩
  | .hbm, ⟨22, _⟩ => ⟨S8192x2, .i32⟩
  | .hbm, ⟨23, _⟩ => ⟨S8192x2048, .f32⟩
  | .hbm, ⟨24, _⟩ => ⟨S1x2048, .f32⟩
  | .hbm, ⟨25, _⟩ => ⟨S1x2048, .f32⟩
  | .hbm, ⟨26, _⟩ => ⟨S1x2048, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  shapeCasts_S1x8192_S8192 : S1x8192.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S2048_S1x2048_1 : S2048.BroadcastsInDim S1x2048 (![1] : Fin 1 → Fin S1x2048.rank)
  gather_S16x8192x2048_S8192x2_S8192x2048_1_01_n_n_01_1_112048_wf : GatherDims.WF S16x8192x2048 S8192x2 S8192x2048 [1] [0, 1] [] [0, 1] [] 1 ![1, 1, 2048]
  dot_S1x8192_S8192x2048_S1x2048_1_0_0_1_n_n_wf : DotDims.WF S1x8192 S8192x2048 S1x2048 [1] [0] [0] [1] [] []

variable [Facts₀]

def gather_S16x8192x2048_S8192x2_S8192x2048_1_01_n_n_01_1_112048 : GatherDims S16x8192x2048 S8192x2 S8192x2048 where
  offsetDims := [1]
  collapsedSliceDims := [0, 1]
  operandBatchingDims := []
  startIndicesBatchingDims := []
  startIndexMap := [0, 1]
  indexVectorDim := 1
  sliceSizes := ![1, 1, 2048]
  wf := gather_S16x8192x2048_S8192x2_S8192x2048_1_01_n_n_01_1_112048_wf
def dot_S1x8192_S8192x2048_S1x2048_1_0_0_1_n_n : DotDims S1x8192 S8192x2048 S1x2048 where
  lhsContracting := [1]
  rhsContracting := [0]
  lhsNonContracting := [0]
  rhsNonContracting := [1]
  lhsBatch := []
  rhsBatch := []
  wf := dot_S1x8192_S8192x2048_S1x2048_1_0_0_1_n_n_wf

class Facts : Prop extends Facts₀ where

variable [Facts]
-- ==== Proof.IndexRange.lean ====
/-
  The precondition's last conjunct, read back: every index word is a table number.

  The stated precondition ends in `all((indices >= 0) & (indices < 16))`, a reduction by `and` of an array of bits into
  one bit that the claim states is 1. Then the bit of every index word is 1, that is, the word read SIGNED lies in
  [0, 16); a word that is not negative reads the same unsigned, so its unsigned value is below 16.
-/
import proofs.«415197_j81870666597189_1_alg».proof.Pre_finite_inputs
import Idealize.ShloMosaic.Lib.ReduceAll

namespace Cert.IndexRange

open Idealize.ShloMosaic

/-- A 32-bit word whose signed reading is in [0, 16) has an unsigned value below 16. -/
theorem toNat_lt_sixteen (w : BitVec 32) (h0 : (0#32 : BitVec 32).toInt ≤ w.toInt) (h1 : w.toInt < (16#32 : BitVec 32).toInt) :
    w.toNat < 16 := by
  have e0 : (0#32 : BitVec 32).toInt = 0 := by decide
  have e16 : (16#32 : BitVec 32).toInt = 16 := by decide
  rw [e0] at h0
  rw [e16] at h1
  have hw := w.isLt
  rw [BitVec.toInt_eq_toNat_cond] at h0 h1
  split at h0 <;> omega

variable [Cert.Pre_finite_inputs.Facts]

open Cert.Pre_finite_inputs in
/-- Under the precondition every index word is below 16. -/
theorem idx_lt_of_pre {F : FTy → Type} [FloatOps F] (a0 : FVec F S1x8192 .f32) (a1 : IVec S1x8192 32)
    (a2 : FVec F S16x8192x2048 .f32) (a3 : FVec F S2048 .f32)
    (h : fn (F := F) a0 a1 a2 a3 = fun _ => 1#1) (i : S1x8192.Idx) : (a1 i).toNat < 16 := by
  haveI : Subsingleton S_.Idx := ⟨fun a b => funext fun d => d.elim0⟩
  have e := congrFun h (fun d => d.elim0)
  dsimp only [fn, fn_part1] at e
  have e2 := (IntOp.andi_eq_one.1 e).2
  have e3 := Host.reduce_andi_all _ _ _ _ _ e2 i
  obtain ⟨h0, h16⟩ := IntOp.andi_eq_one.1 e3
  exact toNat_lt_sixteen _ (IntOp.cmpi_sge.1 h0) (IntOp.cmpi_slt.1 h16)

end Cert.IndexRange
-- ==== Proof.Lookup.lean ====
/-
  The indexed linear layer, as one function of its four arguments.

  Feature `k` of the input row `x : [1, 8192]` selects, by its index word `idx[0, k]`, one of the 16 weight tables
  `P[q] : [8192, 2048]`; output column `n` is

      out[0, n] = (∑ k, x[0, k] * P[sel k, k, n]) + b[n].

  The selected table `sel k` is the index word read unsigned and capped at 15, so that the function is defined for
  every word; on the words the layer is meant for (0 ≤ idx < 16) the cap does nothing.
-/
import Idealize.ShloMosaic.Lib.ValueIdx
import Mathlib.Data.EReal.Basic

noncomputable section

namespace Cert.Lookup

open Idealize.ShloMosaic Idealize.ShloMosaic.ValueIdx
open scoped BigOperators

/-- The table feature `k` selects: its index word, unsigned, capped at 15. -/
def sel (idx : (⟨2, ![1, 8192]⟩ : Shape).Idx → BitVec 32) (k : Fin 8192) : Fin 16 :=
  ⟨min (idx (ix2 0 k)).toNat 15, by omega⟩

/-- On an index word below 16 the cap does nothing. -/
theorem sel_val (idx : (⟨2, ![1, 8192]⟩ : Shape).Idx → BitVec 32) (k : Fin 8192) (h : (idx (ix2 0 k)).toNat < 16) :
    (sel idx k).val = (idx (ix2 0 k)).toNat := by
  show min (idx (ix2 0 k)).toNat 15 = _
  omega

/-- The layer's output row. -/
def out (x : (⟨2, ![1, 8192]⟩ : Shape).Idx → EReal) (idx : (⟨2, ![1, 8192]⟩ : Shape).Idx → BitVec 32)
    (P : (⟨3, ![16, 8192, 2048]⟩ : Shape).Idx → EReal) (b : (⟨1, ![2048]⟩ : Shape).Idx → EReal) :
    (⟨2, ![1, 2048]⟩ : Shape).Idx → EReal :=
  fun i => (∑ k : Fin 8192, x (ix2 0 k) * P (ix3 (sel idx k) k (i 1))) + b (ix1 (i 1))

theorem out_apply (x : (⟨2, ![1, 8192]⟩ : Shape).Idx → EReal) (idx : (⟨2, ![1, 8192]⟩ : Shape).Idx → BitVec 32)
    (P : (⟨3, ![16, 8192, 2048]⟩ : Shape).Idx → EReal) (b : (⟨1, ![2048]⟩ : Shape).Idx → EReal) (n : Fin 2048) :
    out x idx P b (ix2 0 n) = (∑ k : Fin 8192, x (ix2 0 k) * P (ix3 (sel idx k) k n)) + b (ix1 n) := rfl

end Cert.Lookup

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.RefValue.lean ====
/-
  The reference program's result as the indexed linear layer.

  The reference wraps each index word (a negative word gets 16 added), pairs it with its feature number k (an
  iota, wrapped the same way against 8192), and gathers: row k of the gathered matrix is row k of the table the
  word selects, W[k, n] = P[idx[0, k], k, n]. A gather reads its start indices signed and clamps them into the
  operand, so for any words at all W[k, n] = P[min I[k, 0] 15, min I[k, 1] 8191, n], with I the [8192, 2] array
  of start indices. On words below 16 nothing wraps and nothing clamps: the first start index is the word, the
  second is k. The product x @ W plus the bias row is then the layer's sum.
-/
import proofs.«415197_j81870666597189_1_alg».proof.Proof.Gen.ReferenceIdeal.Read
import proofs.«415197_j81870666597189_1_alg».proof.Proof.Lookup
import proofs.«415197_j81870666597189_1_alg».proof.Proof.LibRowOps
import Idealize.ShloMosaic.Lib.Affine
import Idealize.ShloMosaic.Lib.ValueIdx
import Idealize.ShloMosaic.Lib.StableHlo.Predicate

noncomputable section

namespace Cert.ReferenceIdeal.RefValue
open Cert.ReferenceIdeal Cert.ReferenceIdeal.Gen Cert.ReferenceIdeal.Read Idealize.ShloMosaic Idealize.ShloMosaic.ValueIdx
open scoped BigOperators

/-! ## The gather at an index -/

/-- The gather's dimension numbers. -/
abbrev G : GatherDims S16x8192x2048 S8192x2 S8192x2048 :=
  gather_S16x8192x2048_S8192x2_S8192x2048_1_01_n_n_01_1_112048

/-- Result element (k, n) of the gather: the operand at the two start indices of row k, each read signed and
    clamped into its axis, and at n on the last axis. -/
theorem gather_apply {α : Type} (P : S16x8192x2048.Idx → α) (I : IVec S8192x2 32) (k : Fin 8192) (n : Fin 2048) :
    Host.gather G P I (ix2 k n)
      = P (ix3 (⟨min (I (ix2 k 0)).toInt.toNat 15, by omega⟩ : Fin 16)
            (⟨min (I (ix2 k 1)).toInt.toNat 8191, by omega⟩ : Fin 8192) n) := by
  unfold Host.gather
  congr 1
  funext a
  refine Fin.ext ?_
  match a with
  | ⟨0, _⟩ =>
    show G.start (ix2 k n) I 0 + G.batchCoord (ix2 k n) 0 + G.offCoord (ix2 k n) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin S16x8192x2048.rank) ∈ G.startIndexMap by decide)]
    have hsi : G.siIdx (ix2 k n) ⟨List.idxOf (0 : Fin S16x8192x2048.rank) G.startIndexMap,
        List.idxOf_lt_length_iff.2 (by decide)⟩ = ix2 k 0 := by
      funext b; refine Fin.ext ?_
      match b with
      | ⟨0, _⟩ => rfl
      | ⟨1, _⟩ => rfl
    rw [hsi]
    rfl
  | ⟨1, _⟩ =>
    show G.start (ix2 k n) I 1 + G.batchCoord (ix2 k n) 1 + G.offCoord (ix2 k n) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin S16x8192x2048.rank) ∈ G.startIndexMap by decide)]
    have hsi : G.siIdx (ix2 k n) ⟨List.idxOf (1 : Fin S16x8192x2048.rank) G.startIndexMap,
        List.idxOf_lt_length_iff.2 (by decide)⟩ = ix2 k 1 := by
      funext b; refine Fin.ext ?_
      match b with
      | ⟨0, _⟩ => rfl
      | ⟨1, _⟩ => rfl
    rw [hsi]
    rfl
  | ⟨2, _⟩ =>
    show G.start (ix2 k n) I 2 + G.batchCoord (ix2 k n) 2 + G.offCoord (ix2 k n) 2 = _
    rw [GatherDims.batchCoord_eq_zero _ _ _ List.not_mem_nil]
    unfold GatherDims.start
    rw [dif_neg (show ¬ (2 : Fin S16x8192x2048.rank) ∈ G.startIndexMap by decide)]
    unfold GatherDims.offCoord
    rw [dif_pos (show (2 : Fin S16x8192x2048.rank) ∈ G.sKept by decide)]
    simp only [Nat.add_zero, Nat.zero_add]
    rfl

/-! ## The two start-index columns -/

/-- A word below 2 ^ 31 is not negative when read signed. -/
theorem slt_zero_of_lt (w : BitVec 32) (h : w.toNat < 2 ^ 31) : IntOp.cmpi .slt w 0#32 = 0#1 := by
  refine eq_zero_of_ne_one fun h1 => ?_
  have hlt := IntOp.cmpi_slt.mp h1
  rw [StableHlo.Predicate.toInt_eq_toNat_of_lt h, BitVec.toInt_zero] at hlt
  omega

/-- The reshaped index row reads the index array at (0, k). -/
theorem idx_v0 (k : Fin 8192) : idx_main_v0 (ix1 k) = ix2 0 k := by
  funext a
  match a with
  | ⟨0, _⟩ => rfl
  | ⟨1, _⟩ => exact Fin.ext (Nat.mod_eq_of_lt k.isLt)

/-- Column 0 of the start indices: a word below 16 is not wrapped. -/
theorem col0 (x1 : (⟨S1x8192, .i32⟩ : BufTy).Contents (Elt Ideal)) (k : Fin 8192) (h : (x1 (ix2 0 k)).toNat < 16) :
    val_main_v12 (F := Ideal) x1 (ix2 k 0) = x1 (ix2 0 k) := by
  have e : idx_main_v12 (ix2 k (0 : Fin 1)) = ix1 k := by
    funext a
    match a with
    | ⟨0, _⟩ => rfl
  rw [val_main_v12_apply, e, val_main_v6_apply, val_main_v3_apply, val_main_v0_apply, idx_v0, val_main_v2_apply,
    val_main_c_apply, slt_zero_of_lt _ (by omega), select_zero]

/-- Column 1 of the start indices: the feature number, which is below 8192 and so not wrapped. -/
theorem col1 (k : Fin 8192) : val_main_v13 (F := Ideal) (ix2 k 0) = BitVec.ofNat 32 k.val := by
  have e : idx_main_v13 (ix2 k (0 : Fin 1)) = ix1 k := by
    funext a
    match a with
    | ⟨0, _⟩ => rfl
  have hk : (BitVec.ofNat 32 k.val).toNat < 2 ^ 31 := by
    rw [BitVec.toNat_ofNat]
    have := k.isLt
    omega
  rw [val_main_v13_apply, e, val_main_v11_apply, val_main_v8_apply, val_main_v1_apply, val_main_v7_apply,
    val_main_c_1_apply]
  show Scalar.select (IntOp.cmpi .slt (BitVec.ofNat 32 k.val) 0#32) _ (BitVec.ofNat 32 k.val) = _
  rw [slt_zero_of_lt _ hk, select_zero]

/-- Row k of the concatenated start indices is the pair of the two columns at row k. -/
theorem cat_apply (x1 : (⟨S1x8192, .i32⟩ : BufTy).Contents (Elt Ideal)) (k : Fin 8192) (q : Fin 2) :
    val_main_v14 (F := Ideal) x1 (ix2 k q)
      = ![val_main_v12 (F := Ideal) x1 (ix2 k 0), val_main_v13 (F := Ideal) (ix2 k 0)] q :=
  Cert.LibRowOps.cat2_apply _ _ concatenates_S8192x1_S8192x1_S8192x2_d1 k q

/-- The first start index of row k is the index word of feature k. -/
theorem start0 (x1 : (⟨S1x8192, .i32⟩ : BufTy).Contents (Elt Ideal)) (k : Fin 8192) (h : (x1 (ix2 0 k)).toNat < 16) :
    val_main_v14 (F := Ideal) x1 (ix2 k 0) = x1 (ix2 0 k) :=
  (cat_apply x1 k 0).trans (col0 x1 k h)

/-- The second start index of row k is k. -/
theorem start1 (x1 : (⟨S1x8192, .i32⟩ : BufTy).Contents (Elt Ideal)) (k : Fin 8192) :
    val_main_v14 (F := Ideal) x1 (ix2 k 1) = BitVec.ofNat 32 k.val :=
  (cat_apply x1 k 1).trans (col1 k)

/-! ## The gathered matrix, the product and the bias -/

/-- Element (k, n) of the gathered matrix: the table the word of feature k selects, at (k, n). -/
theorem gathered_apply (x1 : (⟨S1x8192, .i32⟩ : BufTy).Contents (Elt Ideal))
    (x2 : (⟨S16x8192x2048, .f32⟩ : BufTy).Contents (Elt Ideal)) (k : Fin 8192) (n : Fin 2048)
    (h : (x1 (ix2 0 k)).toNat < 16) :
    val_main_v15 (F := Ideal) x1 x2 (ix2 k n) = x2 (ix3 (Cert.Lookup.sel x1 k) k n) := by
  show Host.gather G x2 (val_main_v14 (F := Ideal) x1) (ix2 k n) = _
  rw [gather_apply]
  have e0 : (⟨min (val_main_v14 (F := Ideal) x1 (ix2 k 0)).toInt.toNat 15, by omega⟩ : Fin 16) = Cert.Lookup.sel x1 k := by
    refine Fin.ext ?_
    show min (val_main_v14 (F := Ideal) x1 (ix2 k 0)).toInt.toNat 15 = min (x1 (ix2 0 k)).toNat 15
    rw [start0 x1 k h, StableHlo.Predicate.toInt_eq_toNat_of_lt (by omega), Int.toNat_natCast]
  have e1 : (⟨min (val_main_v14 (F := Ideal) x1 (ix2 k 1)).toInt.toNat 8191, by omega⟩ : Fin 8192) = k := by
    refine Fin.ext ?_
    show min (val_main_v14 (F := Ideal) x1 (ix2 k 1)).toInt.toNat 8191 = k.val
    have := k.isLt
    rw [start1 x1 k, StableHlo.Predicate.toInt_ofNat_small _ (by omega), Int.toNat_natCast]
    omega
  exact congrArg₂ (fun a b => x2 (ix3 a b n)) e0 e1

/-- One term of the product's sum. -/
theorem term (x0 : (⟨S1x8192, .f32⟩ : BufTy).Contents (Elt Ideal)) (x1 : (⟨S1x8192, .i32⟩ : BufTy).Contents (Elt Ideal))
    (x2 : (⟨S16x8192x2048, .f32⟩ : BufTy).Contents (Elt Ideal)) (k : Fin 8192) (n : Fin 2048)
    (h : (x1 (ix2 0 k)).toNat < 16) :
    x0 (lidx_main_v16 (ix2 (0 : Fin 1) n) k) * val_main_v15 (F := Ideal) x1 x2 (ridx_main_v16 (ix2 (0 : Fin 1) n) k)
      = x0 (ix2 0 k) * x2 (ix3 (Cert.Lookup.sel x1 k) k n) := by
  have el : lidx_main_v16 (ix2 (0 : Fin 1) n) k = ix2 0 k := by
    funext a
    match a with
    | ⟨0, _⟩ => rfl
    | ⟨1, _⟩ => rfl
  have er : ridx_main_v16 (ix2 (0 : Fin 1) n) k = ix2 k n := by
    funext a
    match a with
    | ⟨0, _⟩ => rfl
    | ⟨1, _⟩ => rfl
  rw [el, er, gathered_apply x1 x2 k n h]

theorem result_eq (x0 : (⟨S1x8192, .f32⟩ : BufTy).Contents (Elt Ideal)) (x1 : (⟨S1x8192, .i32⟩ : BufTy).Contents (Elt Ideal))
    (x2 : (⟨S16x8192x2048, .f32⟩ : BufTy).Contents (Elt Ideal)) (x3 : (⟨S2048, .f32⟩ : BufTy).Contents (Elt Ideal))
    (hx1 : ∀ i, (x1 i).toNat < 16) :
    val_main_v18 (F := Ideal) x0 x1 x2 x3 = Cert.Lookup.out x0 x1 x2 x3 := by
  funext i
  obtain ⟨p, n, rfl⟩ : ∃ (p : Fin 1) (n : Fin 2048), i = ix2 p n := ⟨i 0, i 1, eq_ix2 i⟩
  obtain rfl : p = 0 := Subsingleton.elim _ _
  have eb : idx_main_v17 (ix2 (0 : Fin 1) n) = ix1 n := by
    funext a
    match a with
    | ⟨0, _⟩ => rfl
  rw [val_main_v18_apply, val_main_v16_apply, val_main_v17_apply, eb, Cert.Lookup.out_apply]
  show (∑ k : Fin 8192, x0 (lidx_main_v16 (ix2 (0 : Fin 1) n) k) * val_main_v15 (F := Ideal) x1 x2 (ridx_main_v16 (ix2 (0 : Fin 1) n) k))
      + x3 (ix1 n) = _
  exact congrArg (· + x3 (ix1 n)) (Finset.sum_congr rfl fun k _ => term x0 x1 x2 k n (hx1 _))

end Cert.ReferenceIdeal.RefValue

end
-- ==== Proof.KernelPieces.lean ====
/-
  What one grid point leaves behind, as values of the point's input blocks.

  The body at grid point (n, q) keeps a running row `acc : [1, 512]` in a scratch buffer that survives from one point to
  the next. With `step q idx x w acc` = `acc + (x * [idx = q]) · w` (the body's one arithmetic payload) and `zero` the
  row of zeros:
  * at q = 0 the scratch is first set to `zero` and then stepped, so it ends at `step 0 idx x w zero`, whatever it held;
  * at 0 < q the scratch ends at `step q idx x w acc`, `acc` being what the point before left;
  * at q = 15 the output block is, in addition, stored: the stepped scratch plus the bias block.
  Each statement reads the stores the body's run found back as one function: a store through the whole block leaves its
  payload, and a load through the whole block of a buffer reads the buffer.
-/
import proofs.«415197_j81870666597189_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point with 0 < q < 15: the scratch holding `acc` ends at the step of `acc`. -/
theorem scratch_mid (c : Dev nD) (i : grid0.Coords) (arg2 : Memref sig .tc .vmem S1x8192 .f32) (harg2 : arg2.IsWhole) (arg3 : Memref sig .tc .vmem S1x8192 .i32) (harg3 : arg3.IsWhole) (arg4 : Memref sig .tc .vmem S1x8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i) (x0 : Vec F S1x8192 .f32) (x1 : Vec F S1x8192 .i32) (x2 : Vec F S1x8192x512 .f32) (x3 : Vec F S1x512 .f32) (acc : Vec F S1x512 .f32) :
    sout0_B_0 c i arg2 harg2 arg3 harg3 arg4 harg4 arg5 harg5 arg6 harg6 arg7 harg7 hc0 hc1 x0 x1 x2 x3 acc = k0_pay2 i x1 x0 x2 acc := by
  unfold sout0_B_0
  rw [View.read_writes_eq_canon _ _ _ (scover0_B_0 c i arg2 harg2 arg3 harg3 arg4 harg4 arg5 harg5 arg6 harg6 arg7 harg7 hc0 hc1 x0 x1 x2 x3 acc)]
  unfold kernelRun0_B
  dsimp only
  sl_unfold_words
  rw [View.canon_unit_zero hz2]
  simp only [View.readAt_eq_ld, harg2.read_unread, harg3.read_unread, harg4.read_unread, harg5.read_unread, harg7.read_unread,
    View.ld_unit_zero (S := S1x8192) hz2, View.ld_unit_zero (S := S1x8192x512) hz3, View.ld_unit_zero (S := S1x512) hz2,
    View.readCov_unit_zero (S := S1x512) _ hz2]

/-- A point with q = 0: the scratch is reset to zeros and stepped once. -/
theorem scratch_first (c : Dev nD) (i : grid0.Coords) (arg2 : Memref sig .tc .vmem S1x8192 .f32) (harg2 : arg2.IsWhole) (arg3 : Memref sig .tc .vmem S1x8192 .i32) (harg3 : arg3.IsWhole) (arg4 : Memref sig .tc .vmem S1x8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i) (x0 : Vec F S1x8192 .f32) (x1 : Vec F S1x8192 .i32) (x2 : Vec F S1x8192x512 .f32) (x3 : Vec F S1x512 .f32) :
    sout0_A_0 c i arg2 harg2 arg3 harg3 arg4 harg4 arg5 harg5 arg6 harg6 arg7 harg7 hc0 hc1 x0 x1 x2 x3 = k0_pay2 i x1 x0 x2 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x512) hz2]
  simp only [View.readAt_eq_ld, harg2.read_unread, harg3.read_unread, harg4.read_unread, harg5.read_unread, harg7.read_unread,
    View.ld_unit_zero (S := S1x8192) hz2, View.ld_unit_zero (S := S1x8192x512) hz3, View.ld_unit_zero (S := S1x512) hz2,
    View.readCov_unit_zero (S := S1x512) _ hz2]

/-- A point with q = 15: the scratch is stepped as at any later point, -/
theorem scratch_last (c : Dev nD) (i : grid0.Coords) (arg2 : Memref sig .tc .vmem S1x8192 .f32) (harg2 : arg2.IsWhole) (arg3 : Memref sig .tc .vmem S1x8192 .i32) (harg3 : arg3.IsWhole) (arg4 : Memref sig .tc .vmem S1x8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i) (x0 : Vec F S1x8192 .f32) (x1 : Vec F S1x8192 .i32) (x2 : Vec F S1x8192x512 .f32) (x3 : Vec F S1x512 .f32) (acc : Vec F S1x512 .f32) :
    sout0_C_0 c i arg2 harg2 arg3 harg3 arg4 harg4 arg5 harg5 arg6 harg6 arg7 harg7 hc0 hc1 x0 x1 x2 x3 acc = k0_pay2 i x1 x0 x2 acc := by
  unfold sout0_C_0
  rw [View.read_writes_eq_canon _ _ _ (scover0_C_0 c i arg2 harg2 arg3 harg3 arg4 harg4 arg5 harg5 arg6 harg6 arg7 harg7 hc0 hc1 x0 x1 x2 x3 acc)]
  unfold kernelRun0_C
  dsimp only
  sl_unfold_words
  rw [View.canon_unit_zero hz2]
  simp only [View.readAt_eq_ld, harg2.read_unread, harg3.read_unread, harg4.read_unread, harg5.read_unread, harg7.read_unread,
    View.ld_unit_zero (S := S1x8192) hz2, View.ld_unit_zero (S := S1x8192x512) hz3, View.ld_unit_zero (S := S1x512) hz2,
    View.readCov_unit_zero (S := S1x512) _ hz2]

/-- and the output block is the stepped scratch plus the bias block. -/
theorem out_last (c : Dev nD) (i : grid0.Coords) (arg2 : Memref sig .tc .vmem S1x8192 .f32) (harg2 : arg2.IsWhole) (arg3 : Memref sig .tc .vmem S1x8192 .i32) (harg3 : arg3.IsWhole) (arg4 : Memref sig .tc .vmem S1x8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i) (x0 : Vec F S1x8192 .f32) (x1 : Vec F S1x8192 .i32) (x2 : Vec F S1x8192x512 .f32) (x3 : Vec F S1x512 .f32) (acc : Vec F S1x512 .f32) :
    out0_C_4 c i arg2 harg2 arg3 harg3 arg4 harg4 arg5 harg5 arg6 harg6 arg7 harg7 hc0 hc1 x0 x1 x2 x3 acc = k0_pay3 (k0_pay2 i x1 x0 x2 acc) x3 := by
  unfold out0_C_4
  rw [View.read_writes_eq_canon _ _ _ (cover0_C_4 c i arg2 harg2 arg3 harg3 arg4 harg4 arg5 harg5 arg6 harg6 arg7 harg7 hc0 hc1 x0 x1 x2 x3 acc)]
  unfold kernelRun0_C
  dsimp only
  sl_unfold_words
  rw [View.canon_unit_zero hz2]
  simp only [View.readAt_eq_ld, harg2.read_unread, harg3.read_unread, harg4.read_unread, harg5.read_unread, harg7.read_unread,
    View.ld_unit_zero (S := S1x8192) hz2, View.ld_unit_zero (S := S1x8192x512) hz3, View.ld_unit_zero (S := S1x512) hz2,
    View.readCov_unit_zero (S := S1x512) _ hz2]

end Cert.KernelIdeal.Pieces

end
-- ==== Proof.KernelStep.lean ====
/-
  The body's arithmetic at one output column, over the extended reals.

  With `q` the point's second grid coordinate, the body's step payload at column `j` of its [1, 512] row is

      step (0, j) = acc (0, j) + ∑ k, (x (0, k) * [idx (0, k) = q]) * w (0, k, j):

  the comparison bit widened and converted is the indicator `1` or `0`; the weight block [1, 8192, 512] is used as an
  [8192, 512] matrix (dropping its unit axis); the matrix product into a zero accumulator is the plain sum over `k`.
  The reset payload is `0` in every column, and the output payload adds the bias block's column.
-/
import proofs.«415197_j81870666597189_1_alg».proof.Proof.Gen.KernelIdeal.Skeleton
import proofs.«415197_j81870666597189_1_alg».proof.Proof.LibRowOps
import Idealize.ShloMosaic.Lib.Pipeline.Value
import Idealize.ShloMosaic.Lib.ValueIdx
import Idealize.ShloMosaic.Lib.Affine
import Idealize.ShloMosaic.PureOps.Ideal.Laws

noncomputable section

open Idealize.ShloMosaic Idealize.ShloMosaic.ValueIdx
open scoped BigOperators

namespace Cert.KernelIdeal.Step

open Cert.KernelIdeal Cert.KernelIdeal.Gen

/-- The comparison bit of two words, widened to 32 bits and converted, is the indicator of their equality. -/
theorem indicator (a b : BitVec 32) :
    (((((IntOp.cmpi .eq a b).setWidth 32).toInt : ℤ) : ℝ) : EReal) = if a = b then (1 : EReal) else 0 := by
  by_cases h : a = b
  · rw [if_pos h, IntOp.cmpi_eq.2 h]
    have : ((1#1 : BitVec 1).setWidth 32).toInt = 1 := by decide
    rw [this]; norm_num
  · have h0 : IntOp.cmpi .eq a b = 0#1 := by
      have := mt IntOp.cmpi_eq.1 h
      revert this
      generalize IntOp.cmpi .eq a b = c
      revert c; decide
    rw [if_neg h, h0]
    have : ((0#1 : BitVec 1).setWidth 32).toInt = 0 := by decide
    rw [this]; norm_num

/-- The reset payload is zero in every column. -/
theorem zero_apply (y : S1x512.Idx) : k0_pay1 (F := Ideal) y = 0 := by
  unfold k0_pay1
  rw [shapeCast_self]
  show Ideal.ofBits .f32 0x00000000#32 = 0
  exact Ideal.ofBits_zero_f32

/-- The step payload at column `j`. -/
theorem step_apply (i : grid0.Coords) (idx : Vec Ideal S1x8192 .i32) (x : Vec Ideal S1x8192 .f32)
    (w : Vec Ideal S1x8192x512 .f32) (acc : Vec Ideal S1x512 .f32) (j : Fin 512) :
    k0_pay2 (F := Ideal) i idx x w acc (ix2 0 j)
      = acc (ix2 0 j) + ∑ k : Fin 8192,
          (x (ix2 0 k) * (if idx (ix2 0 k) = BitVec.ofNat 32 (i 1).val then (1 : EReal) else 0)) * w (ix3 0 k j) := by
  unfold k0_pay2
  dsimp only
  rw [shapeCast_self]
  show acc (ix2 0 j) + matmul (F := Ideal) _ none _ _ _ (ix2 0 j) = _
  rw [Cert.LibRowOps.matmul_plain_apply dot_S1x8192_S8192x512_S1x512_1_0_0_1_n_n rfl]
  congr 1
  refine Finset.sum_congr rfl fun k _ => ?_
  rw [shapeCast_dropUnit_apply]
  congr 1
  · show x (ix2 0 k) * (((((IntOp.cmpi .eq (idx (ix2 0 k)) (BitVec.ofNat 32 (i 1).val)).setWidth 32).toInt : ℤ) : ℝ) : EReal) = _
    rw [indicator]
  · congr 1
    funext a
    match a with
    | ⟨0, _⟩ => rfl
    | ⟨1, _⟩ => rfl
    | ⟨2, _⟩ => rfl

/-- The output payload at column `j`: the stepped row plus the bias block. -/
theorem out_apply (r b : Vec Ideal S1x512 .f32) (y : S1x512.Idx) :
    k0_pay3 (F := Ideal) r b y = r y + b y := by
  unfold k0_pay3
  rw [shapeCast_self]
  rfl

end Cert.KernelIdeal.Step

end
-- ==== Proof.KernelBlocks.lean ====
/-
  The windows' blocks at a grid point, as entries of the argument arrays.

  The grid is 4 × 16; point `t` has column tile `n = t / 16` and table number `q = t % 16`. At that point
  * the input row and the index row are staged whole: entry (0, k) of the block is entry (0, k) of the array;
  * the weight block is table `q`, all 8192 rows, columns 512 n … 512 n + 511: entry (0, k, j) of the block is
    entry (q, k, 512 n + j) of the [16, 8192, 2048] array;
  * the bias block is columns 512 n … 512 n + 511 of the bias laid out as a [1, 2048] row (a reshape of the [2048]
    argument done before the call): entry (0, j) is bias entry 512 n + j.
  An entry of a block is the array's entry at block index × block size + the entry's position in the block.
-/
import proofs.«415197_j81870666597189_1_alg».proof.Proof.Gen.KernelIdeal.Value
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps and the second grid coordinate, decided once over the 64 points. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = t.val % 16 ∧ win0_2.index t (1 : Fin 3) = 0 ∧ win0_2.index t (2 : Fin 3) = t.val / 16
    ∧ win0_3.index t (0 : Fin 2) = 0 ∧ win0_3.index t (1 : Fin 2) = t.val / 16
    ∧ win0_4.index t (0 : Fin 2) = 0 ∧ win0_4.index t (1 : Fin 2) = t.val / 16
    ∧ ((grid0.coords t) 1).val = t.val % 16 :=
  (by decide +kernel : ∀ t : Fin grid0.N, _)

/-- The input row's block is the input row. -/
theorem x_apply (c : Dev nD) (t : Fin cfg0.N) (k : Fin 8192) :
    (iblk m c 0 t : Vec F S1x8192 .f32) (ix2 0 k) = m ((c : Thread nD τ).loc main_arg0) (ix2 0 k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 1 + 1 * 0 = 0; omega
  | ⟨1, _⟩ => show win0_0.index t (1 : Fin 2) * 8192 + 1 * k.val = k.val; omega

/-- The index row's block is the index row. -/
theorem idx_apply (c : Dev nD) (t : Fin cfg0.N) (k : Fin 8192) :
    (iblk m c 1 t : Vec F S1x8192 .i32) (ix2 0 k) = m ((c : Thread nD τ).loc main_arg1) (ix2 0 k) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 1 + 1 * 0 = 0; omega
  | ⟨1, _⟩ => show win0_1.index t (1 : Fin 2) * 8192 + 1 * k.val = k.val; omega

/-- The weight block is table `t % 16`, columns from `512 (t / 16)`. -/
theorem w_apply (c : Dev nD) (t : Fin cfg0.N) (k : Fin 8192) (j : Fin 512) (q : Fin 16) (col : Fin 2048)
    (hq : q.val = t.val % 16) (hcol : col.val = 512 * (t.val / 16) + j.val) :
    (iblk m c 2 t : Vec F S1x8192x512 .f32) (ix3 0 k j) = m ((c : Thread nD τ).loc main_arg2) (ix3 q k col) := by
  obtain ⟨-, -, -, -, e0, e1, e2, -⟩ := idx_facts t
  unfold iblk
  rw [View.read_apply]
  show V m c main_arg2 _ = _
  rw [V_main_arg2]
  congr 1
  funext a
  apply Fin.ext
  match a with
  | ⟨0, _⟩ => show win0_2.index t (0 : Fin 3) * 1 + 1 * 0 = q.val; omega
  | ⟨1, _⟩ => show win0_2.index t (1 : Fin 3) * 8192 + 1 * k.val = k.val; omega
  | ⟨2, _⟩ => show win0_2.index t (2 : Fin 3) * 512 + 1 * j.val = col.val; omega

/-- The bias row the call is given: the [2048] argument as a [1, 2048] row. -/
theorem bias_row (c : Dev nD) :
    (V m c main_v0 : S1x2048.Idx → Elt F .f32) = shapeCast S1x2048 (m ((c : Thread nD τ).loc main_arg3)) shapeCasts_S2048_S1x2048 := by
  dsimp only [V, hostOps0]
  after_results
  rfl

/-- The bias block is bias entries from `512 (t / 16)`. -/
theorem b_apply (c : Dev nD) (t : Fin cfg0.N) (j : Fin 512) (col : Fin 2048) (hcol : col.val = 512 * (t.val / 16) + j.val) :
    (iblk m c 3 t : Vec F S1x512 .f32) (ix2 0 j) = m ((c : Thread nD τ).loc main_arg3) (ix1 col) := by
  obtain ⟨-, -, -, -, -, -, -, e0, e1, -⟩ := idx_facts t
  unfold iblk
  rw [View.read_apply]
  show V m c main_v0 _ = _
  rw [bias_row]
  refine (shapeCast_apply _ shapeCasts_S2048_S1x2048 _ (ix1 col) ?_).trans rfl
  rw [Shape.rowMajor_val_two, Shape.rowMajor_val_one]
  show col.val = (win0_3.index t (0 : Fin 2) * 1 + 1 * 0) * 2048 + (win0_3.index t (1 : Fin 2) * 512 + 1 * j.val)
  omega

end Cert.KernelIdeal.Blocks

end
-- ==== Proof.MaskedSum.lean ====
/-
  A table lookup written as a sum of masked products.

  For every input feature `k` one of `Q` weight tables is selected by an index `sel k : Fin Q`, and the result is
  `∑ k, x k * P (sel k) k`. The same number is obtained by visiting the tables one after the other and, at table
  `q`, multiplying `x` by the indicator of `sel k = q` before the product with table `q`:

      ∑ q, ∑ k, (x k * [sel k = q]) * P q k  =  ∑ k, x k * P (sel k) k.

  Swap the two sums; for a fixed `k` exactly one `q` has indicator `1`, and every other term is `(x k * 0) * P q k = 0`.
  On the extended reals `0 * a = 0` and `a * 0 = 0` for EVERY `a`, infinite ones included, and `a * 1 = a`, so no
  finiteness is needed.
-/
import Mathlib.Data.EReal.Basic
import Mathlib.Algebra.BigOperators.Group.Finset.Basic
import Mathlib.Algebra.BigOperators.Fin

namespace Cert.MaskedSum

open scoped BigOperators

/-- One feature: summing over the tables the product masked by `[s = q]` leaves the selected table's term. -/
theorem sum_indicator {Q : ℕ} (s : Fin Q) (a : EReal) (p : Fin Q → EReal) :
    ∑ q : Fin Q, (a * (if s = q then (1 : EReal) else 0)) * p q = a * p s := by
  rw [Finset.sum_eq_single s]
  · rw [if_pos rfl, mul_one]
  · intro q _ hq
    rw [if_neg (fun h => hq h.symm), mul_zero, zero_mul]
  · intro h; exact absurd (Finset.mem_univ s) h

/-- The masked sum over all tables is the lookup. -/
theorem masked_sum_eq_lookup {Q K : ℕ} (sel : Fin K → Fin Q) (x : Fin K → EReal) (P : Fin Q → Fin K → EReal) :
    ∑ q : Fin Q, ∑ k : Fin K, (x k * (if sel k = q then (1 : EReal) else 0)) * P q k = ∑ k : Fin K, x k * P (sel k) k := by
  rw [Finset.sum_comm]
  exact Finset.sum_congr rfl fun k _ => sum_indicator (sel k) (x k) (fun q => P q k)

/-- The same with the tables visited through `Finset.range`, as a running accumulation over the table number
    produces it, started from zero. -/
theorem zero_add_range_masked_sum {Q K : ℕ} (sel : Fin K → Fin Q) (x : Fin K → EReal) (P : ℕ → Fin K → EReal)
    (mask : ℕ → Fin K → EReal) (hmask : ∀ (q : ℕ) (k : Fin K), q < Q → mask q k = if (sel k).val = q then (1 : EReal) else 0) :
    (0 : EReal) + ∑ q ∈ Finset.range Q, ∑ k : Fin K, (x k * mask q k) * P q k = ∑ k : Fin K, x k * P (sel k).val k := by
  rw [zero_add, Finset.sum_range (fun q => ∑ k : Fin K, (x k * mask q k) * P q k)]
  rw [← masked_sum_eq_lookup sel x (fun q k => P q.val k)]
  refine Finset.sum_congr rfl fun q _ => Finset.sum_congr rfl fun k _ => ?_
  rw [hmask q.val k q.isLt]
  congr 2
  exact if_congr (by rw [Fin.ext_iff]) rfl rfl

end Cert.MaskedSum
-- ==== Proof.KernelValue.lean ====
/-
  The kernel's result array is the indexed linear layer of its arguments.

  For a column tile `n` the sixteen points 16 n … 16 n + 15 share one output block and one scratch row. Point
  16 n + q adds to the scratch, at column `j`, its ADDEND

      a(16 n + q) (j) = ∑ k, (x (0, k) * [idx (0, k) = q]) * P (q, k, 512 n + j),

  starting from zero at q = 0, so after the last point the scratch is `0 + ∑ q < 16, a(16 n + q)`, and the block written
  back there is that row plus the bias block. Summing the masked products over the sixteen tables is the table lookup
  (every index word being one of the sixteen table numbers), so the block is the layer's output at columns
  512 n … 512 n + 511. The four tiles' last points (t % 16 = 15) are the points that write back, and their blocks tile
  the [1, 2048] row.
-/
import proofs.«415197_j81870666597189_1_alg».proof.Proof.Gen.KernelIdeal.Value
import proofs.«415197_j81870666597189_1_alg».proof.Proof.KernelPieces
import proofs.«415197_j81870666597189_1_alg».proof.Proof.KernelStep
import proofs.«415197_j81870666597189_1_alg».proof.Proof.KernelBlocks
import proofs.«415197_j81870666597189_1_alg».proof.Proof.Lookup
import proofs.«415197_j81870666597189_1_alg».proof.Proof.MaskedSum
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.KValue

open Cert.KernelIdeal Cert.KernelIdeal.Gen

variable (m : (ℓ : Loc nD τ sig) → Buf (Elt Ideal) ℓ) (ρ : Dev nD → PrngReg)

/-- An index of a [1, 512] row is (0, its column). -/
theorem row_idx (y : S1x512.Idx) : y = ix2 0 ⟨(y 1).val, (y 1).isLt⟩ := by
  funext a
  apply Fin.ext
  match a with
  | ⟨0, _⟩ =>
    have h : (y 0).val < 1 := (y 0).isLt
    show (y 0).val = 0
    omega
  | ⟨1, _⟩ => rfl

/-- The four input blocks at a point, each at its literal type. -/
abbrev xblk (c : Dev nD) (t : Fin cfg0.N) : Vec Ideal S1x8192 .f32 := iblk m c 0 t
abbrev iblkw (c : Dev nD) (t : Fin cfg0.N) : Vec Ideal S1x8192 .i32 := iblk m c 1 t
abbrev wblk (c : Dev nD) (t : Fin cfg0.N) : Vec Ideal S1x8192x512 .f32 := iblk m c 2 t
abbrev bblk (c : Dev nD) (t : Fin cfg0.N) : Vec Ideal S1x512 .f32 := iblk m c 3 t

/-- Point `n`'s addend at a column of its block, over the point's blocks; zero past the grid. -/
def addend (c : Dev nD) (n : ℕ) (y : S1x512.Idx) : EReal :=
  if h : n < cfg0.N then
    ∑ k : Fin 8192, (xblk m c ⟨n, h⟩ (ix2 0 k)
        * (if iblkw m c ⟨n, h⟩ (ix2 0 k) = BitVec.ofNat 32 ((grid0.coords ⟨n, h⟩) 1).val then (1 : EReal) else 0))
      * wblk m c ⟨n, h⟩ (ix3 0 k ⟨(y 1).val, (y 1).isLt⟩)
  else 0

/-- The body's step at point `t` adds the point's addend. -/
theorem step_point (c : Dev nD) (t : Fin cfg0.N) (acc : Vec Ideal S1x512 .f32) (y : S1x512.Idx) :
    k0_pay2 (F := Ideal) (grid0.coords t) (iblk m c 1 t) (iblk m c 0 t) (iblk m c 2 t) acc y = acc y + addend m c t.val y := by
  obtain ⟨j, rfl⟩ : ∃ j : Fin 512, y = ix2 0 j := ⟨_, row_idx y⟩
  rw [Cert.KernelIdeal.Step.step_apply]
  unfold addend
  rw [dif_pos t.isLt]

/-- At the first point of a tile the scratch ends at zero plus the addend, whatever it held. -/
theorem scAt_first (c : Dev nD) (n : ℕ) (hb : n < cfg0.N) (h0 : n % 16 = 0) (acc : Vec Ideal S1x512 .f32) (y : S1x512.Idx) :
    Value.scAt0_0 m c n hb acc y = 0 + addend m c n y := by
  unfold Value.scAt0_0
  rw [dif_pos h0, dif_neg (by omega), Cert.KernelIdeal.Pieces.scratch_first]
  rw [step_point m c ⟨n, hb⟩, Cert.KernelIdeal.Step.zero_apply]

/-- At every later point of the tile it ends at what it held plus the addend. -/
theorem scAt_later (c : Dev nD) (n : ℕ) (hb : n < cfg0.N) (h0 : ¬n % 16 = 0) (acc : Vec Ideal S1x512 .f32) (y : S1x512.Idx) :
    Value.scAt0_0 m c n hb acc y = acc y + addend m c n y := by
  unfold Value.scAt0_0
  rw [dif_neg h0]
  by_cases h1 : n % 16 = 15
  · rw [dif_pos h1, Cert.KernelIdeal.Pieces.scratch_last]
    exact step_point m c ⟨n, hb⟩ acc y
  · rw [dif_neg h1, Cert.KernelIdeal.Pieces.scratch_mid]
    exact step_point m c ⟨n, hb⟩ acc y

/-- THE SCRATCH AFTER POINT `t`: zero plus the addends of the tile's points up to `t`. -/
theorem scratch_after (c : Dev nD) (t : Fin cfg0.N) (y : S1x512.Idx) :
    (outsAt0 m c t.val t.isLt).2 y = 0 + ∑ s ∈ Finset.range (t.val % 16 + 1), addend m c (16 * (t.val / 16) + s) y := by
  rw [Value.soutsAt0_0_eq m c t]
  exact Pipeline.accAt_add_apply (fun n h => Value.scAt0_0 m c n h (VS0_0.read (Elt Ideal) VS0_0.junk)) (Value.scAt0_0 m c)
    (fun _ => 0) (addend m c) (16 * (t.val / 16)) 15
    (fun h i => scAt_first m c _ h (by omega) _ i)
    (fun n h acc i hlt hle => scAt_later m c n h (by omega) acc i)
    (t.val % 16) (by omega) _ y

/-- THE OUTPUT BLOCK at a tile's last point: the scratch after it plus the bias block. -/
theorem out_at_last (c : Dev nD) (t : Fin cfg0.N) (h1 : t.val % 16 = 15) (y : S1x512.Idx) :
    (outsAt0 m c t.val t.isLt).1 y
      = (0 + ∑ s ∈ Finset.range 16, addend m c (16 * (t.val / 16) + s) y) + bblk m c t y := by
  have h0 : ¬t.val % 16 = 0 := by omega
  have e1 : (outsAt0 m c t.val t.isLt).1 = k0_pay3 (F := Ideal) (outsAt0 m c t.val t.isLt).2 (iblk m c 3 t) := by
    rw [outsAt0_C m c t h0 h1]
    dsimp only
    rw [Cert.KernelIdeal.Pieces.out_last, Cert.KernelIdeal.Pieces.scratch_last]
  rw [e1, Cert.KernelIdeal.Step.out_apply, scratch_after, h1]

end Cert.KernelIdeal.KValue

end
-- ==== Proof.KernelFinal.lean ====
/-
  From the blocks to the result array.

  At the last point of column tile `n` the output block holds, at column `j`,
  `(0 + ∑ q < 16, a(16 n + q) (j)) + bias (512 n + j)`, and over the argument arrays the addend of point 16 n + q is
  `∑ k, (x (0, k) * [idx (0, k) = q]) * P (q, k, 512 n + j)`. An index word below 16 equals the word of `q` exactly
  when its value is `q`, so the masked sum over the sixteen tables is the lookup `∑ k, x (0, k) * P (idx k, k, 512 n + j)`:
  the block is the layer's output row at columns 512 n … 512 n + 511. Column `i` of the [1, 2048] row lies in the block
  of tile `i / 512`, written back at point 16 (i / 512) + 15, so the four written blocks cover the row and the array
  ends at the layer's output.
-/
import proofs.«415197_j81870666597189_1_alg».proof.Proof.KernelValue

noncomputable section

open Idealize.ShloMosaic Idealize.ShloMosaic.TcCoe Idealize.SL.Sem Idealize.ShloMosaic.ValueIdx
open Idealize.ShloMosaic.Pipeline (Dat)
open scoped BigOperators

namespace Cert.KernelIdeal.KFinal

open Cert.KernelIdeal Cert.KernelIdeal.Gen Cert.KernelIdeal.KValue

variable (m : (ℓ : Loc nD τ sig) → Buf (Elt Ideal) ℓ) (ρ : Dev nD → PrngReg)

/-- The four argument arrays, each at its literal type. -/
abbrev xrow (c : Dev nD) : (⟨2, ![1, 8192]⟩ : Shape).Idx → EReal := m ((c : Thread nD τ).loc main_arg0)
abbrev words (c : Dev nD) : (⟨2, ![1, 8192]⟩ : Shape).Idx → BitVec 32 := m ((c : Thread nD τ).loc main_arg1)
abbrev tables (c : Dev nD) : (⟨3, ![16, 8192, 2048]⟩ : Shape).Idx → EReal := m ((c : Thread nD τ).loc main_arg2)
abbrev bias (c : Dev nD) : (⟨1, ![2048]⟩ : Shape).Idx → EReal := m ((c : Thread nD τ).loc main_arg3)

/-- The layer's output row of the argument arrays. -/
abbrev result (c : Dev nD) : Buf (Elt Ideal) ((c : Thread nD τ).loc main_v1) :=
  Cert.Lookup.out (xrow m c) (words m c) (tables m c) (bias m c)

/-- A word equals the word of a small number exactly when its value is that number. -/
theorem word_eq_iff (w : BitVec 32) (q : ℕ) (hq : q < 16) : w = BitVec.ofNat 32 q ↔ w.toNat = q := by
  constructor
  · intro h
    rw [h, BitVec.toNat_ofNat]
    exact Nat.mod_eq_of_lt (by omega)
  · intro h
    apply BitVec.eq_of_toNat_eq
    rw [BitVec.toNat_ofNat, h]
    exact (Nat.mod_eq_of_lt (by omega)).symm

/-- Table `q` at row `k` and a fixed column of the weight array; zero past the sixteen tables. -/
def tbl (c : Dev nD) (col : Fin 2048) (q : ℕ) (k : Fin 8192) : EReal :=
  if hq : q < 16 then tables m c (ix3 ⟨q, hq⟩ k col) else 0

/-- The addend of point 16 n + s over the argument arrays. -/
theorem addend_eq (c : Dev nD) (n s : ℕ) (hn : n < 4) (hs : s < 16) (j : Fin 512) (col : Fin 2048)
    (hcol : col.val = 512 * n + j.val) :
    addend m c (16 * n + s) (ix2 0 j)
      = ∑ k : Fin 8192, (xrow m c (ix2 0 k)
          * (if words m c (ix2 0 k) = BitVec.ofNat 32 s then (1 : EReal) else 0)) * tbl m c col s k := by
  have hN : cfg0.N = 64 := N_0
  have hlt : 16 * n + s < cfg0.N := by omega
  obtain ⟨-, -, -, -, -, -, -, -, -, -, -, ec⟩ := Cert.KernelIdeal.Blocks.idx_facts ⟨16 * n + s, hlt⟩
  have ec' : ((grid0.coords ⟨16 * n + s, hlt⟩) 1).val = s := by
    rw [ec]
    show (16 * n + s) % 16 = s
    omega
  unfold addend tbl
  rw [dif_pos hlt]
  refine Finset.sum_congr rfl fun k _ => ?_
  rw [dif_pos hs]
  refine congrArg₂ (· * ·) (congrArg₂ (· * ·) (Cert.KernelIdeal.Blocks.x_apply m c _ k) ?_)
    (Cert.KernelIdeal.Blocks.w_apply m c ⟨16 * n + s, hlt⟩ k j ⟨s, hs⟩ col ?_ ?_)
  · rw [ec']
    exact if_congr (by rw [show iblkw m c ⟨16 * n + s, hlt⟩ (ix2 0 k) = _ from Cert.KernelIdeal.Blocks.idx_apply m c _ k]) rfl rfl
  · show s = (16 * n + s) % 16
    omega
  · show col.val = 512 * ((16 * n + s) / 16) + j.val
    omega

/-- WHAT A TILE'S LAST POINT WRITES BACK is its block of the layer's output row. -/
theorem flushed_eq (hidx : ∀ (c : Dev nD) (i : S1x8192.Idx), (m ((c : Thread nD τ).loc main_arg1) i).toNat < 16)
    (c : Dev nD) (t : Fin cfg0.N) (hf : (cfg0.win 4).flush t = true) :
    (dats m 0 c).flushed 4 t = ((cfg0.win 4).blk t).view.read (Elt Ideal) (result m c) := by
  have h1 : t.val % 16 = 15 := (flush0_4 t).mp hf
  have hN : cfg0.N = 64 := N_0
  have ht := t.isLt
  obtain ⟨-, -, -, -, -, -, -, -, -, e0, e1, -⟩ := Cert.KernelIdeal.Blocks.idx_facts t
  rw [Value.flushed4]
  funext y
  obtain ⟨j, rfl⟩ : ∃ j : Fin 512, y = ix2 0 j := ⟨_, row_idx y⟩
  have hj := j.isLt
  obtain ⟨col, hcol⟩ : ∃ col : Fin 2048, col.val = 512 * (t.val / 16) + j.val := ⟨⟨512 * (t.val / 16) + j.val, by omega⟩, rfl⟩
  have hemb : ((cfg0.win 4).blk t).view.emb (ix2 0 j) = (ix2 0 col : S1x2048.Idx) := by
    funext a
    apply Fin.ext
    match a with
    | ⟨0, _⟩ => show win0_4.index t (0 : Fin 2) * 1 + 1 * 0 = 0; omega
    | ⟨1, _⟩ => show win0_4.index t (1 : Fin 2) * 512 + 1 * j.val = col.val; omega
  show (outsAt0 m c t.val t.isLt).1 (ix2 0 j) = result m c (((cfg0.win 4).blk t).view.emb (ix2 0 j))
  rw [hemb, out_at_last m c t h1]
  show _ = Cert.Lookup.out (xrow m c) (words m c) (tables m c) (bias m c) (ix2 0 col)
  rw [Cert.Lookup.out_apply]
  have hmask : ∀ (q : ℕ) (k : Fin 8192), q < 16 →
      (if words m c (ix2 0 k) = BitVec.ofNat 32 q then (1 : EReal) else 0)
        = if (Cert.Lookup.sel (words m c) k).val = q then (1 : EReal) else 0 := fun q k hq =>
    if_congr (by rw [Cert.Lookup.sel_val _ k (hidx c _)]; exact word_eq_iff _ q hq) rfl rfl
  refine congrArg₂ (· + ·) ?_ (Cert.KernelIdeal.Blocks.b_apply m c t j col hcol)
  rw [Finset.sum_congr rfl fun s hs => addend_eq m c (t.val / 16) s (by omega) (Finset.mem_range.mp hs) j col hcol]
  refine (Cert.MaskedSum.zero_add_range_masked_sum (Q := 16) (K := 8192) (Cert.Lookup.sel (words m c))
    (fun k => xrow m c (ix2 0 k)) (tbl m c col)
    (fun q k => if words m c (ix2 0 k) = BitVec.ofNat 32 q then (1 : EReal) else 0) hmask).trans ?_
  refine Finset.sum_congr rfl fun k _ => ?_
  unfold tbl
  rw [dif_pos (Cert.Lookup.sel (words m c) k).isLt]

/-- Every column of the row is in the block some tile's last point writes back. -/
theorem cover (i : S1x2048.Idx) : ∃ t : Fin cfg0.N, (cfg0.win 4).flush t = true ∧ i ∈ ((cfg0.win 4).blk t).view.set := by
  have hN : cfg0.N = 64 := N_0
  have h0 : (i 0).val < 1 := (i 0).isLt
  have h1 : (i 1).val < 2048 := (i 1).isLt
  obtain ⟨t, et⟩ : ∃ t : Fin cfg0.N, t.val = 16 * ((i 1).val / 512) + 15 := ⟨⟨16 * ((i 1).val / 512) + 15, by omega⟩, rfl⟩
  obtain ⟨-, -, -, -, -, -, -, -, -, e0, e1, -⟩ := Cert.KernelIdeal.Blocks.idx_facts t
  refine ⟨t, (flush0_4 t).mpr (by omega), ?_⟩
  show i ∈ ((View.whole main_v1).slice (win0_4.rect t)).set
  rw [View.set_slice_whole, Rect.mem_set_unit]
  intro a
  match a with
  | ⟨0, _⟩ =>
    show win0_4.index t (0 : Fin 2) * 1 ≤ (i 0).val ∧ (i 0).val < win0_4.index t (0 : Fin 2) * 1 + 1
    omega
  | ⟨1, _⟩ =>
    show win0_4.index t (1 : Fin 2) * 512 ≤ (i 1).val ∧ (i 1).val < win0_4.index t (1 : Fin 2) * 512 + 512
    omega

/-- THE RESULT ARRAY after the run is the layer's output row. -/
theorem final (hidx : ∀ (c : Dev nD) (i : S1x8192.Idx), (m ((c : Thread nD τ).loc main_arg1) i).toNat < 16) (c : Dev nD) :
    (dats m 0 c).arrAt 4 cfg0.N = result m c :=
  (dats m 0 c).arrAt_eq_of_cover 4 (result m c) (flushed_eq m hidx c) cover

/-- The kernel's run, read: the result array at the layer's output row, the arguments unchanged. -/
theorem run (hidx : ∀ (c : Dev nD) (i : S1x8192.Idx), (m ((c : Thread nD τ).loc main_arg1) i).toNat < 16) :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hidx c), (h c).2⟩) (Value.run_blocks m ρ)

end Cert.KernelIdeal.KFinal

end
-- ==== Proof.lean ====
/-
  An indexed linear layer: each of the 8192 input features picks, by an index word in [0, 16), one of sixteen weight
  tables, and the output row is `out[0, n] = (∑ k, x[0, k] * P[idx[k], k, n]) + bias[n]`.

  The reference gathers the selected rows `W[k, :] = P[idx[k], k, :]` and multiplies, `x @ W + bias`. The kernel never
  gathers: over a 4 × 16 grid (column tile, table number) it multiplies `x` by the indicator of `idx = q`, takes the
  product with table `q`'s column tile, accumulates the sixteen products of a tile in a scratch row that is zeroed at
  q = 0, and at q = 15 writes the row plus the bias tile. Over the extended reals the two agree because, for each
  feature, exactly one of the sixteen indicators is `1` and the others contribute `(x * 0) * P = 0` whatever `x` and
  `P` are; no finiteness enters, and sums may be regrouped freely. What does enter is the range of the index words:
  the reference wraps a negative word and clamps a large one, where the kernel's indicators are all `0`, so the
  precondition states `0 ≤ idx < 16`, the range of an index into an axis of extent 16.

  The three frames are the generated ones (the reference's is its generated run with the result dropped); the ideal pass
  rewrote nothing, so `preserves` is trivial; `algebraic` puts the kernel's run (its result array read as the layer's
  output row) beside the reference's run (its result term read as the same row).
-/
import proofs.«415197_j81870666597189_1_alg».proof.Defs
import proofs.«415197_j81870666597189_1_alg».proof.Proof.Gen.Kernel
import proofs.«415197_j81870666597189_1_alg».proof.Proof.Gen.Kernel.Skeleton
import proofs.«415197_j81870666597189_1_alg».proof.Proof.Gen.Kernel.Launch
import proofs.«415197_j81870666597189_1_alg».proof.Proof.Gen.Kernel.Points
import proofs.«415197_j81870666597189_1_alg».proof.Proof.Gen.Kernel.Frame
import proofs.«415197_j81870666597189_1_alg».proof.Proof.Gen.KernelIdeal
import proofs.«415197_j81870666597189_1_alg».proof.Proof.Gen.KernelIdeal.Skeleton
import proofs.«415197_j81870666597189_1_alg».proof.Proof.Gen.KernelIdeal.Launch
import proofs.«415197_j81870666597189_1_alg».proof.Proof.Gen.KernelIdeal.Points
import proofs.«415197_j81870666597189_1_alg».proof.Proof.Gen.KernelIdeal.Frame
import proofs.«415197_j81870666597189_1_alg».proof.Proof.Gen.ReferenceIdeal
import proofs.«415197_j81870666597189_1_alg».proof.Proof.Gen.Pre_finite_inputs
import proofs.«415197_j81870666597189_1_alg».proof.Proof.Gen.KernelIdeal.Value
import proofs.«415197_j81870666597189_1_alg».proof.Proof.Gen.ReferenceIdeal.Run
import proofs.«415197_j81870666597189_1_alg».proof.Proof.Gen.ReferenceIdeal.Read
import proofs.«415197_j81870666597189_1_alg».proof.Proof.IndexRange
import proofs.«415197_j81870666597189_1_alg».proof.Proof.RefValue
import proofs.«415197_j81870666597189_1_alg».proof.Proof.KernelFinal
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition every index word is a table number; then both runs end with the layer's output row of
    arguments that agree. -/
theorem algebraic : Cert.algebraic_KernelIdeal_ReferenceIdeal := by
  intro m ρ m' ρ' hpre hagree
  have hidx : ∀ (c : Dev Cert.KernelIdeal.nD) (i : Cert.KernelIdeal.S1x8192.Idx),
      (m ((c : Thread Cert.KernelIdeal.nD Cert.KernelIdeal.τ).loc Cert.KernelIdeal.main_arg1) i).toNat < 16 :=
    fun c i => Cert.IndexRange.idx_lt_of_pre _ _ _ _ (hpre c) i
  refine ⟨fun c => Cert.KernelIdeal.KFinal.result m c, Cert.KernelIdeal.KFinal.run m ρ hidx, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v18_eq _ _ _ _).trans
    (Cert.ReferenceIdeal.RefValue.result_eq _ _ _ _ (hidx c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
